-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x16 : Shape := ⟨2, ![1000, 16]⟩
abbrev S_ : Shape := ⟨0, ![]⟩

class Facts : Prop where
  bcast_S_S1000x16 : S_.BroadcastsInDim S1000x16 (![] : Fin 0 → Fin S1000x16.rank)
  reducesTo_S1000x16_S_d0_1 : S1000x16.ReducesTo [0, 1] S_
  h_S_ : 0 < S_.numel

variable [Facts]

def fn {F : FTy → Type} [FloatOps F] (main_arg0 : IVec S16384x1000 32) (main_arg1 : FVec F S1000x16 .f32) : IVec S_ 1 :=
  let main_v0 : FVec F S1000x16 .f32 := Host.absf main_arg1
  let main_cst : FVec F S_ .f32 := constant S_ .f32 0x7F800000#32
  let main_v1 : FVec F S1000x16 .f32 := broadcastInDim S1000x16 ![] bcast_S_S1000x16 main_cst
  let main_v2 : IVec S1000x16 1 := cmpf .olt main_v0 main_v1
  let main_c : IVec S_ 1 := constantI S_ 1 1#1
  let main_v3 : IVec S_ 1 := (fun x v => Host.reduce IntOp.andi x v reducesTo_S1000x16_S_d0_1 h_S_) main_v2 main_c
  main_v3
-- ==== Kernel.lean ====
abbrev S16384x1000 : Shape := ⟨2, ![16384, 1000]⟩
abbrev S1000x16 : Shape := ⟨2, ![1000, 16]⟩
abbrev S1000x16384 : Shape := ⟨2, ![1000, 16384]⟩
abbrev S16x1000 : Shape := ⟨2, ![16, 1000]⟩
abbrev S16x16383 : Shape := ⟨2, ![16, 16383]⟩
abbrev S200x16384 : Shape := ⟨2, ![200, 16384]⟩
abbrev S200x16 : Shape := ⟨2, ![200, 16]⟩
abbrev S16x16384 : Shape := ⟨2, ![16, 16384]⟩
abbrev S16383x16 : Shape := ⟨2, ![16383, 16]⟩

abbrev nBuf : Space → Nat
  | .hbm => 6
  | .vmem => 5
  | .smem => 0
  | _ => 0

abbrev bufTy : (tb : Table) → Fin (tcTables nBuf tb) → BufTy
  | .hbm, ⟨0, _⟩ => ⟨S16384x1000, .i32⟩
  | .hbm, ⟨1, _⟩ => ⟨S1000x16, .f32⟩
  | .hbm, ⟨2, _⟩ => ⟨S1000x16384, .i32⟩
  | .hbm, ⟨3, _⟩ => ⟨S16x1000, .f32⟩
  | .hbm, ⟨4, _⟩ => ⟨S16x16383, .f32⟩
  | .hbm, ⟨5, _⟩ => ⟨S16383x16, .f32⟩
  | .local _ .vmem, ⟨0, _⟩ => ⟨S200x16384, .i32⟩
  | .local _ .vmem, ⟨1, _⟩ => ⟨S200x16384, .i32⟩
  | .local _ .vmem, ⟨2, _⟩ => ⟨S16x1000, .f32⟩
  | .local _ .vmem, ⟨3, _⟩ => ⟨S16x16383, .f32⟩
  | .local _ .vmem, ⟨4, _⟩ => ⟨S1000x16, .f32⟩
  | _, _ => ⟨S16384x1000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let c200_i32 : BitVec 32 := 200#32
  let v6 : BitVec 32 := Scalar.muli arg0 c200_i32
  let v7 : Index := Scalar.indexCast v6
  let c0_2 : Index := 0#32
  ![v7.toNat, 0]
def k0_cond2 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

def k0_cond3 (i : grid0.Coords) : BitVec 1 :=
  let arg0 : BitVec 32 := BitVec.ofNat 32 (i 0).val
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16383 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S16384x1000_S1000x16384_1_0 : S16384x1000.Transposes [1, 0] S1000x16384
  transposes_S1000x16_S16x1000_1_0 : S1000x16.Transposes [1, 0] S16x1000
  inb_S16x1000_S16x1000_0_0 : ∀ a, (![0, 0] : Fin 2 → Nat) a + S16x1000.size a ≤ S16x1000.size a
  h_S16x1000 : 0 < S16x1000.numel
  shapeCasts_S16x1000_S16x1000 : S16x1000.ShapeCasts S16x1000
  transposes_S16x1000_p1_0_S1000x16 : S16x1000.Transposes [1, 0] S1000x16
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  inb_S200x16384_S200x16384_0_0 : ∀ a, (![0, 0] : Fin 2 → Nat) a + S200x16384.size a ≤ S200x16384.size a
  h_S200x16384 : 0 < S200x16384.numel
  shapeCasts_S200x16384_S200x16384 : S200x16384.ShapeCasts S200x16384
  h_S200x16 : 0 < S200x16.numel
  slices_S16x16384_o0_1_S16x16383 : S16x16384.Slices ![0, 1] S16x16383
  inb_S16x16383_S16x16383_0_0 : ∀ a, (![0, 0] : Fin 2 → Nat) a + S16x16383.size a ≤ S16x16383.size a
  h_S16x16383 : 0 < S16x16383.numel
  shapeCasts_S16x16383_S16x16383 : S16x16383.ShapeCasts S16x16383
  transposes_S16x16383_S16383x16_1_0 : S16x16383.Transposes [1, 0] S16383x16
  dot_S200x16_S200x16384_S16x16384_0_0_1_1_n_n_wf : DotDims.WF S200x16 S200x16384 S16x16384 [0] [0] [1] [1] [] []
  hrank0 : 0 < grid0.rank
  k0_off1_inb : ∀ i : grid0.Coords, ∀ a, (k0_off1 i) a + S200x16.size a ≤ S1000x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x16384.size a ≤ S1000x16384.size a
  hwx0_0 : ∀ i : grid0.Coords, EltTy.bits .i32 = 32 ∨ (Rect.block (s := S1000x16384) S200x16384.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1000.size a ≤ S16x1000.size a
  hwx0_1 : ∀ i : grid0.Coords, EltTy.bits .f32 = 32 ∨ (Rect.block (s := S16x1000) S16x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16383.size a ≤ S16x16383.size a
  hwx0_2 : ∀ i : grid0.Coords, EltTy.bits .f32 = 32 ∨ (Rect.block (s := S16x16383) S16x16383.size (cc0_transform_2 i) (hinb0_2 i)).WholeWords (EltTy.packing .f32)

variable [Facts₀]

def dot_S200x16_S200x16384_S16x16384_0_0_1_1_n_n : DotDims S200x16 S200x16384 S16x16384 where
  lhsContracting := [0]
  rhsContracting := [0]
  lhsNonContracting := [1]
  rhsNonContracting := [1]
  lhsBatch := []
  rhsBatch := []
  wf := dot_S200x16_S200x16384_S16x16384_0_0_1_1_n_n_wf

abbrev win0_0 : Pipeline.Window sig grid0 :=
  Pipeline.Window.ofSpec (Memref.whole main_v0) S200x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x16383.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S16384x1000 : Shape := ⟨2, ![16384, 1000]⟩
abbrev S1000x16 : Shape := ⟨2, ![1000, 16]⟩
abbrev S16383x1000 : Shape := ⟨2, ![16383, 1000]⟩
abbrev S16383x16 : Shape := ⟨2, ![16383, 16]⟩

abbrev nBuf : Space → Nat
  | .hbm => 5
  | .vmem => 0
  | .smem => 0
  | _ => 0

abbrev bufTy : (tb : Table) → Fin (tcTables nBuf tb) → BufTy
  | .hbm, ⟨0, _⟩ => ⟨S16384x1000, .i32⟩
  | .hbm, ⟨1, _⟩ => ⟨S1000x16, .f32⟩
  | .hbm, ⟨2, _⟩ => ⟨S16384x1000, .f32⟩
  | .hbm, ⟨3, _⟩ => ⟨S16383x1000, .f32⟩
  | .hbm, ⟨4, _⟩ => ⟨S16383x16, .f32⟩
  | _, _ => ⟨S16384x1000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  slices_S16384x1000_S16383x1000_1_0 : S16384x1000.Slices ![1, 0] S16383x1000
  dot_S16383x1000_S1000x16_S16383x16_1_0_0_1_n_n_wf : DotDims.WF S16383x1000 S1000x16 S16383x16 [1] [0] [0] [1] [] []

variable [Facts₀]

def dot_S16383x1000_S1000x16_S16383x16_1_0_0_1_n_n : DotDims S16383x1000 S1000x16 S16383x16 where
  lhsContracting := [1]
  rhsContracting := [0]
  lhsNonContracting := [0]
  rhsNonContracting := [1]
  lhsBatch := []
  rhsBatch := []
  wf := dot_S16383x1000_S1000x16_S16383x16_1_0_0_1_n_n_wf

class Facts : Prop extends Facts₀ where

variable [Facts]
-- ==== Proof.KernelBody.lean ====
/-
  The kernel's body, run symbolically at every grid point, and the pipeline's proof data over it.

  The grid has five points, one per slab of 200 rows of the transposed integer matrix. At point 0 the body
  copies the transposed table (window 1, 16 x 1000) into its scratch as a 1000 x 16 array and stores the first
  partial product into the output block; at each later point it adds the point's partial product to what the
  block held. The scratch therefore holds the table from the end of point 0 on, and the output block after
  point t holds the sum of the partial products of slabs 0 .. t: both facts are carried from point to point,
  the first in the region invariant, the second as the output window's contents after each point.
-/
import proofs.«159572_g5153960755898_cont_9to1_m_245_21_alg».proof.Proof.Gen.Kernel.Frame
import proofs.«159572_g5153960755898_cont_9to1_m_245_21_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditionals, decided over the grid -/

/-- "This is point 0", as the body tests it before it fills the scratch. -/
abbrev isFirst (i : grid0.Coords) : Prop := (Scalar.cmpi .ne (Scalar.extui (Scalar.cmpi .eq (BitVec.ofNat 32 (i 0).val) 0#32)) 0#32) = 1#1
/-- "This is point 0", as the body tests it before it stores the first partial product. -/
abbrev isFirst' (i : grid0.Coords) : Prop := k0_cond2 i = 1#1
/-- "This is a later point", as the body tests it before it accumulates. -/
abbrev isLater (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isFirst'_iff : ∀ t : Fin cfg0.N, isFirst' (grid0.coords t) ↔ t.val = 0 :=
  (by decide +kernel : ∀ t : Fin grid0.N, isFirst' (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)

/-- No window is idle at any point: the inputs never are, and the output block is stored at point 0 and at every later one. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live2' : ∀ i : grid0.Coords, cfg0.idle 2 i = false := by decide +kernel

/-! ## What the body computes at a point -/

theorem zero2 : (![0, 0] : Fin 2 → ℕ) = fun _ => 0 := by
  funext a; fin_cases a <;> rfl

/-- One store through the whole buffer leaves its payload, whatever the buffer held. -/
theorem read_store_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- The 200 rows of the table the body reads out of its scratch at grid point `i`: rows `200 i .. 200 i + 199`. -/
def slab (i : grid0.Coords) (e : Vec F S1000x16 .f32) : Vec F S200x16 .f32 :=
  View.ld e (Rect.unit (s := S1000x16) (k0_off1 i) S200x16.size (Gen.k0_off1_inb i))

/-- Each window's current staging memref at point `t`, as the pipeline passes it, and the scratch. -/
abbrev ms0 (t : Fin cfg0.N) : Memref sig .tc .vmem S200x16384 .i32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S16x1000 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S16x16383 .f32 := win0_2.stage (cfg0.slots t 2)
abbrev hs2 (t : Fin cfg0.N) : (ms2 t).IsWhole := Gen.hstage0_2 ((cfg0.slots t 2).cast Gen.nbuf0_2)
abbrev scr : Memref sig .tc .vmem S1000x16 .f32 := Memref.whole cc0_scratch0

set_option maxHeartbeats 1000000 in
/-- THE FIRST POINT. With the slab `x0` and the transposed table `x1` in the input buffers, whatever the output
    block and the scratch hold, the body leaves the table (as a 1000 x 16 array) in the scratch and the first
    partial product in the output block. -/
theorem run_first (c : Dev nD) (i : grid0.Coords) (arg1 : Memref sig .tc .vmem S200x16384 .i32) (harg1 : arg1.IsWhole) (arg2 : Memref sig .tc .vmem S16x1000 .f32) (harg2 : arg2.IsWhole) (arg3 : Memref sig .tc .vmem S16x16383 .f32) (harg3 : arg3.IsWhole) (arg4 : Memref sig .tc .vmem S1000x16 .f32) (harg4 : arg4.IsWhole)
    (hc0 : isFirst i) (hc1 : isFirst' i) (hc2 : ¬isLater i)
    (x0 : Vec F S200x16384 .i32) (x1 : Vec F S16x1000 .f32) (E : Set ℕ) (K : PUnit → sProp 𝕄) :
      iprop(owns (c : Thread nD τ) arg1 fullShare x0 ∗ owns (c : Thread nD τ) arg2 fullShare x1 ∗ (∃ d, owns (c : Thread nD τ) arg3 fullShare d) ∗ (∃ d, owns (c : Thread nD τ) arg4 fullShare d)
          ∗ (iprop(owns (c : Thread nD τ) arg1 fullShare x0 ∗ owns (c : Thread nD τ) arg2 fullShare x1
              ∗ owns (c : Thread nD τ) arg3 fullShare (k0_pay2 x0 (slab i (k0_pay1 x1)))
              ∗ owns (c : Thread nD τ) arg4 fullShare (k0_pay1 x1)) -∗ K ⟨⟩))
        ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    rw [read_store_whole _ _ zero2]
    simp only [View.readAt_eq_ld, harg1.read_unread, harg2.read_unread, read_store_whole (S := S1000x16) _ _ zero2]
    rw [View.ld_unit_zero (S := S200x16384) zero2, View.ld_unit_zero (S := S16x1000) zero2]
    rfl
  iexists _; isplitr; swap; · iexact HS0
  ipureintro
  sl_unfold_words
  rw [read_store_whole _ _ zero2]
  simp only [View.readAt_eq_ld, harg2.read_unread]
  rw [View.ld_unit_zero (S := S16x1000) zero2]

set_option maxHeartbeats 1000000 in
/-- A LATER POINT. With the slab `x0` in its buffer, the table `e` in the scratch and the running sum `acc` in the
    output block, the body adds the point's partial product to the block and changes nothing else. -/
theorem run_later (c : Dev nD) (i : grid0.Coords) (arg1 : Memref sig .tc .vmem S200x16384 .i32) (harg1 : arg1.IsWhole) (arg2 : Memref sig .tc .vmem S16x1000 .f32) (harg2 : arg2.IsWhole) (arg3 : Memref sig .tc .vmem S16x16383 .f32) (harg3 : arg3.IsWhole) (arg4 : Memref sig .tc .vmem S1000x16 .f32) (harg4 : arg4.IsWhole)
    (hc0 : ¬isFirst i) (hc1 : ¬isFirst' i) (hc2 : isLater i)
    (x0 : Vec F S200x16384 .i32) (x1 : Vec F S16x1000 .f32) (acc : Vec F S16x16383 .f32) (e : Vec F S1000x16 .f32) (E : Set ℕ) (K : PUnit → sProp 𝕄) :
      iprop(owns (c : Thread nD τ) arg1 fullShare x0 ∗ owns (c : Thread nD τ) arg2 fullShare x1 ∗ owns (c : Thread nD τ) arg3 fullShare acc ∗ owns (c : Thread nD τ) arg4 fullShare e
          ∗ (iprop(owns (c : Thread nD τ) arg1 fullShare x0 ∗ owns (c : Thread nD τ) arg2 fullShare x1
              ∗ owns (c : Thread nD τ) arg3 fullShare (k0_pay3 x0 (slab i e) acc)
              ∗ owns (c : Thread nD τ) arg4 fullShare e) -∗ K ⟨⟩))
        ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    rw [read_store_whole _ _ zero2]
    simp only [View.readAt_eq_ld, harg1.read_unread, harg3.read_unread, harg4.read_unread]
    rw [View.ld_unit_zero (S := S200x16384) zero2, View.ld_unit_zero (S := S16x16383) zero2]
    rfl
  iexists _; isplitr; swap; · iexact HS0
  ipureintro
  exact harg4.read_unread _

/-! ## The table in the scratch, and the running sum in the output block -/

variable (m : (ℓ : Loc nD τ sig) → Buf (Elt F) ℓ) (ρ : Dev nD → PrngReg)

/-- What the scratch holds from the end of point 0 on: the transposed table's block, transposed back (1000 x 16). -/
def table (c : Dev nD) : Vec F S1000x16 .f32 := k0_pay1 (iblk m c 1 t0_0)

/-- THE ACCUMULATION: the output block after point `n`. Point 0 stores the first slab's partial product; each later
    point adds its own to what the point before left. -/
def acc (c : Dev nD) : (n : ℕ) → n < cfg0.N → Vec F S16x16383 .f32
  | 0, hn => k0_pay2 (iblk m c 0 ⟨0, hn⟩) (slab (grid0.coords ⟨0, hn⟩) (table m c))
  | n + 1, hn => k0_pay3 (iblk m c 0 ⟨n + 1, hn⟩) (slab (grid0.coords ⟨n + 1, hn⟩) (table m c)) (acc c n (Nat.lt_of_succ_lt hn))

theorem acc_first (c : Dev nD) (t : Fin cfg0.N) (h0 : t.val = 0) :
    acc m c t.val t.isLt = k0_pay2 (iblk m c 0 t) (slab (grid0.coords t) (table m c)) := by
  obtain ⟨n, hn⟩ := t
  cases n with
  | zero => rfl
  | succ n => exact absurd h0 (Nat.succ_ne_zero n)

theorem acc_later (c : Dev nD) (t : Fin cfg0.N) (h0 : t.val ≠ 0) :
    acc m c t.val t.isLt = k0_pay3 (iblk m c 0 t) (slab (grid0.coords t) (table m c)) (acc m c (t.val - 1) (Nat.lt_of_le_of_lt (Nat.sub_le _ _) t.isLt)) := by
  obtain ⟨n, hn⟩ := t
  cases n with
  | zero => exact absurd rfl h0
  | succ n => rfl

/-- The region invariant before position `n`: before the first point the scratch holds anything (the class's
    invariant); afterwards it holds the table. The generator register is at some state throughout. -/
def PhiS (c : Dev nD) : (n : ℕ) → n ≤ cfg0.N → sProp 𝕄
  | 0, _ => Pipeline.ΦA spec0 c
  | _ + 1, _ => iprop(iprop(owns (c : Thread nD τ) scr fullShare (table m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scr fullShare (table m c)) ∗ (∃ r, prngReg c r)) := by
  cases n with
  | zero => exact absurd rfl hz
  | succ n => rfl

/-- The class's invariant with the scratch as a memref owned at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The pipeline's proof data -/

/-- The proof data on core `c`: the arrays as the region finds them; after the body at point `t` each input's buffer
    at its block and the output's at the running sum `acc`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The output block's index map is constant, so the block is written back only after the last point, and at a
    later point its staging buffer still holds what the point before left: the running sum so far. -/
theorem before2_later (c : Dev nD) (t : Fin cfg0.N) (h0 : t.val ≠ 0) (d) :
    (dats m 0 c).before 2 t d = acc m c (t.val - 1) (Nat.lt_of_le_of_lt (Nat.sub_le _ _) t.isLt) := by
  have hN : t.val < 5 := lt_of_lt_of_eq t.isLt (show cfg0.N = 5 from N_0)
  rw [Dat.before_out_kept _ 2 rfl t h0 (Bool.eq_false_iff.mpr fun h => by have := (flush0_2 _).mp h; dsimp only at this; omega)
    live2' (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point. At point 0 the invariant hands it the scratch at anything and the output block holds
    anything (`run_first`); at a later point the scratch holds the table and the block the running sum
    (`run_later`). Either way the inputs' buffers hold their blocks, the scratch ends at the table and the block at
    the running sum including this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 5 := lt_of_lt_of_eq t.isLt (show cfg0.N = 5 from N_0)
  by_cases h0 : t.val = 0
  · rw [PhiS_castSucc m c t, PhiS_zero m c _ _ h0, PhiA_eq, acc_first m c t h0]
    obtain rfl : t = t0_0 := Fin.ext h0
    unfold table
    iintro ⟨⟨HS0, Hg⟩, Ho, ⟨%d0, H0⟩, ⟨%d1, H1⟩, ⟨%d2, H2⟩⟩
    iapply (run_first c (grid0.coords t0_0) _ _ _ _ _ _ _ _ ((isFirst_iff t0_0).mpr h0) ((isFirst'_iff t0_0).mpr h0)
      (fun h => by have := (isLater_iff t0_0).mp h; omega) (iblk m c 0 t0_0) (iblk m c 1 t0_0) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iexact HS0
      iexact Hg
    isplitl [Ho]; · iexact Ho
    isplitl [H0]; · iexact H0
    isplitl [H1]; · iexact H1
    iexact H2
  · rw [PhiS_castSucc m c t, PhiS_pos m c _ _ h0, acc_later m c t h0]
    simp only [before2_later m c t h0]
    iintro ⟨⟨HS0, Hg⟩, Ho, ⟨%d0, H0⟩, ⟨%d1, H1⟩, ⟨%d2, H2⟩⟩
    iapply (run_later c (grid0.coords t) _ _ _ _ _ _ _ _ (fun h => h0 ((isFirst_iff t).mp h)) (fun h => h0 ((isFirst'_iff t).mp h))
      ((isLater_iff t).mpr (by omega)) (iblk m c 0 t) (iblk m c 1 t) (acc m c (t.val - 1) (Nat.lt_of_le_of_lt (Nat.sub_le _ _) t.isLt)) (table m c) Set.univ _)
    isplitl [H0]; · iexact H0
    isplitl [H1]; · iexact H1
    isplitl [H2]; · iexact H2
    isplitl [HS0]; · iexact HS0
    iintro ⟨H0, H1, H2, HS0⟩
    isplitl [HS0 Hg]
    · isplitl [HS0]
      · iexact HS0
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 5 := N_0; omega), PhiA_eq]
  iintro ⟨HS0, Hg⟩
  isplitl [HS0]
  · iexists _; iexact HS0
  iexact Hg

/-! ## The run and the frame -/

set_option backward.isDefEq.respectTransparency.types false in
/-- From any memory with zero counters every weakly fair execution of @main terminates, and in every final state
    each array of the pipeline holds what the library computes from the proof data (the inputs their entry
    contents, the output array the block written back after the last point) and every other unscoped buffer what
    the transposition after the region leaves it at. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its two argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealBody.lean ====
/-
  The kernel's body, run symbolically at every grid point, and the pipeline's proof data over it.

  The grid has five points, one per slab of 200 rows of the transposed integer matrix. At point 0 the body
  copies the transposed table (window 1, 16 x 1000) into its scratch as a 1000 x 16 array and stores the first
  partial product into the output block; at each later point it adds the point's partial product to what the
  block held. The scratch therefore holds the table from the end of point 0 on, and the output block after
  point t holds the sum of the partial products of slabs 0 .. t: both facts are carried from point to point,
  the first in the region invariant, the second as the output window's contents after each point.
-/
import proofs.«159572_g5153960755898_cont_9to1_m_245_21_alg».proof.Proof.Gen.KernelIdeal.Frame
import proofs.«159572_g5153960755898_cont_9to1_m_245_21_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditionals, decided over the grid -/

/-- "This is point 0", as the body tests it before it fills the scratch. -/
abbrev isFirst (i : grid0.Coords) : Prop := (Scalar.cmpi .ne (Scalar.extui (Scalar.cmpi .eq (BitVec.ofNat 32 (i 0).val) 0#32)) 0#32) = 1#1
/-- "This is point 0", as the body tests it before it stores the first partial product. -/
abbrev isFirst' (i : grid0.Coords) : Prop := k0_cond2 i = 1#1
/-- "This is a later point", as the body tests it before it accumulates. -/
abbrev isLater (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isFirst'_iff : ∀ t : Fin cfg0.N, isFirst' (grid0.coords t) ↔ t.val = 0 :=
  (by decide +kernel : ∀ t : Fin grid0.N, isFirst' (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)

/-- No window is idle at any point: the inputs never are, and the output block is stored at point 0 and at every later one. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live2' : ∀ i : grid0.Coords, cfg0.idle 2 i = false := by decide +kernel

/-! ## What the body computes at a point -/

theorem zero2 : (![0, 0] : Fin 2 → ℕ) = fun _ => 0 := by
  funext a; fin_cases a <;> rfl

/-- One store through the whole buffer leaves its payload, whatever the buffer held. -/
theorem read_store_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- The 200 rows of the table the body reads out of its scratch at grid point `i`: rows `200 i .. 200 i + 199`. -/
def slab (i : grid0.Coords) (e : Vec F S1000x16 .f32) : Vec F S200x16 .f32 :=
  View.ld e (Rect.unit (s := S1000x16) (k0_off1 i) S200x16.size (Gen.k0_off1_inb i))

/-- Each window's current staging memref at point `t`, as the pipeline passes it, and the scratch. -/
abbrev ms0 (t : Fin cfg0.N) : Memref sig .tc .vmem S200x16384 .i32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S16x1000 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S16x16383 .f32 := win0_2.stage (cfg0.slots t 2)
abbrev hs2 (t : Fin cfg0.N) : (ms2 t).IsWhole := Gen.hstage0_2 ((cfg0.slots t 2).cast Gen.nbuf0_2)
abbrev scr : Memref sig .tc .vmem S1000x16 .f32 := Memref.whole cc0_scratch0

set_option maxHeartbeats 1000000 in
/-- THE FIRST POINT. With the slab `x0` and the transposed table `x1` in the input buffers, whatever the output
    block and the scratch hold, the body leaves the table (as a 1000 x 16 array) in the scratch and the first
    partial product in the output block. -/
theorem run_first (c : Dev nD) (i : grid0.Coords) (arg1 : Memref sig .tc .vmem S200x16384 .i32) (harg1 : arg1.IsWhole) (arg2 : Memref sig .tc .vmem S16x1000 .f32) (harg2 : arg2.IsWhole) (arg3 : Memref sig .tc .vmem S16x16383 .f32) (harg3 : arg3.IsWhole) (arg4 : Memref sig .tc .vmem S1000x16 .f32) (harg4 : arg4.IsWhole)
    (hc0 : isFirst i) (hc1 : isFirst' i) (hc2 : ¬isLater i)
    (x0 : Vec F S200x16384 .i32) (x1 : Vec F S16x1000 .f32) (E : Set ℕ) (K : PUnit → sProp 𝕄) :
      iprop(owns (c : Thread nD τ) arg1 fullShare x0 ∗ owns (c : Thread nD τ) arg2 fullShare x1 ∗ (∃ d, owns (c : Thread nD τ) arg3 fullShare d) ∗ (∃ d, owns (c : Thread nD τ) arg4 fullShare d)
          ∗ (iprop(owns (c : Thread nD τ) arg1 fullShare x0 ∗ owns (c : Thread nD τ) arg2 fullShare x1
              ∗ owns (c : Thread nD τ) arg3 fullShare (k0_pay2 x0 (slab i (k0_pay1 x1)))
              ∗ owns (c : Thread nD τ) arg4 fullShare (k0_pay1 x1)) -∗ K ⟨⟩))
        ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    rw [read_store_whole _ _ zero2]
    simp only [View.readAt_eq_ld, harg1.read_unread, harg2.read_unread, read_store_whole (S := S1000x16) _ _ zero2]
    rw [View.ld_unit_zero (S := S200x16384) zero2, View.ld_unit_zero (S := S16x1000) zero2]
    rfl
  iexists _; isplitr; swap; · iexact HS0
  ipureintro
  sl_unfold_words
  rw [read_store_whole _ _ zero2]
  simp only [View.readAt_eq_ld, harg2.read_unread]
  rw [View.ld_unit_zero (S := S16x1000) zero2]

set_option maxHeartbeats 1000000 in
/-- A LATER POINT. With the slab `x0` in its buffer, the table `e` in the scratch and the running sum `acc` in the
    output block, the body adds the point's partial product to the block and changes nothing else. -/
theorem run_later (c : Dev nD) (i : grid0.Coords) (arg1 : Memref sig .tc .vmem S200x16384 .i32) (harg1 : arg1.IsWhole) (arg2 : Memref sig .tc .vmem S16x1000 .f32) (harg2 : arg2.IsWhole) (arg3 : Memref sig .tc .vmem S16x16383 .f32) (harg3 : arg3.IsWhole) (arg4 : Memref sig .tc .vmem S1000x16 .f32) (harg4 : arg4.IsWhole)
    (hc0 : ¬isFirst i) (hc1 : ¬isFirst' i) (hc2 : isLater i)
    (x0 : Vec F S200x16384 .i32) (x1 : Vec F S16x1000 .f32) (acc : Vec F S16x16383 .f32) (e : Vec F S1000x16 .f32) (E : Set ℕ) (K : PUnit → sProp 𝕄) :
      iprop(owns (c : Thread nD τ) arg1 fullShare x0 ∗ owns (c : Thread nD τ) arg2 fullShare x1 ∗ owns (c : Thread nD τ) arg3 fullShare acc ∗ owns (c : Thread nD τ) arg4 fullShare e
          ∗ (iprop(owns (c : Thread nD τ) arg1 fullShare x0 ∗ owns (c : Thread nD τ) arg2 fullShare x1
              ∗ owns (c : Thread nD τ) arg3 fullShare (k0_pay3 x0 (slab i e) acc)
              ∗ owns (c : Thread nD τ) arg4 fullShare e) -∗ K ⟨⟩))
        ⊢ wp frame (wpE (defs₀ (F := F)) Variants.none c none) E (cc0__body i arg1 harg1 arg2 harg2 arg3 harg3 arg4 harg4) K := by
  simp only [cc0__body_eq_skeleton]; unfold cc0__body_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    rw [read_store_whole _ _ zero2]
    simp only [View.readAt_eq_ld, harg1.read_unread, harg3.read_unread, harg4.read_unread]
    rw [View.ld_unit_zero (S := S200x16384) zero2, View.ld_unit_zero (S := S16x16383) zero2]
    rfl
  iexists _; isplitr; swap; · iexact HS0
  ipureintro
  exact harg4.read_unread _

/-! ## The table in the scratch, and the running sum in the output block -/

variable (m : (ℓ : Loc nD τ sig) → Buf (Elt F) ℓ) (ρ : Dev nD → PrngReg)

/-- What the scratch holds from the end of point 0 on: the transposed table's block, transposed back (1000 x 16). -/
def table (c : Dev nD) : Vec F S1000x16 .f32 := k0_pay1 (iblk m c 1 t0_0)

/-- THE ACCUMULATION: the output block after point `n`. Point 0 stores the first slab's partial product; each later
    point adds its own to what the point before left. -/
def acc (c : Dev nD) : (n : ℕ) → n < cfg0.N → Vec F S16x16383 .f32
  | 0, hn => k0_pay2 (iblk m c 0 ⟨0, hn⟩) (slab (grid0.coords ⟨0, hn⟩) (table m c))
  | n + 1, hn => k0_pay3 (iblk m c 0 ⟨n + 1, hn⟩) (slab (grid0.coords ⟨n + 1, hn⟩) (table m c)) (acc c n (Nat.lt_of_succ_lt hn))

theorem acc_first (c : Dev nD) (t : Fin cfg0.N) (h0 : t.val = 0) :
    acc m c t.val t.isLt = k0_pay2 (iblk m c 0 t) (slab (grid0.coords t) (table m c)) := by
  obtain ⟨n, hn⟩ := t
  cases n with
  | zero => rfl
  | succ n => exact absurd h0 (Nat.succ_ne_zero n)

theorem acc_later (c : Dev nD) (t : Fin cfg0.N) (h0 : t.val ≠ 0) :
    acc m c t.val t.isLt = k0_pay3 (iblk m c 0 t) (slab (grid0.coords t) (table m c)) (acc m c (t.val - 1) (Nat.lt_of_le_of_lt (Nat.sub_le _ _) t.isLt)) := by
  obtain ⟨n, hn⟩ := t
  cases n with
  | zero => exact absurd rfl h0
  | succ n => rfl

/-- The region invariant before position `n`: before the first point the scratch holds anything (the class's
    invariant); afterwards it holds the table. The generator register is at some state throughout. -/
def PhiS (c : Dev nD) : (n : ℕ) → n ≤ cfg0.N → sProp 𝕄
  | 0, _ => Pipeline.ΦA spec0 c
  | _ + 1, _ => iprop(iprop(owns (c : Thread nD τ) scr fullShare (table m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scr fullShare (table m c)) ∗ (∃ r, prngReg c r)) := by
  cases n with
  | zero => exact absurd rfl hz
  | succ n => rfl

/-- The class's invariant with the scratch as a memref owned at some contents. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The pipeline's proof data -/

/-- The proof data on core `c`: the arrays as the region finds them; after the body at point `t` each input's buffer
    at its block and the output's at the running sum `acc`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The output block's index map is constant, so the block is written back only after the last point, and at a
    later point its staging buffer still holds what the point before left: the running sum so far. -/
theorem before2_later (c : Dev nD) (t : Fin cfg0.N) (h0 : t.val ≠ 0) (d) :
    (dats m 0 c).before 2 t d = acc m c (t.val - 1) (Nat.lt_of_le_of_lt (Nat.sub_le _ _) t.isLt) := by
  have hN : t.val < 5 := lt_of_lt_of_eq t.isLt (show cfg0.N = 5 from N_0)
  rw [Dat.before_out_kept _ 2 rfl t h0 (Bool.eq_false_iff.mpr fun h => by have := (flush0_2 _).mp h; dsimp only at this; omega)
    live2' (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point. At point 0 the invariant hands it the scratch at anything and the output block holds
    anything (`run_first`); at a later point the scratch holds the table and the block the running sum
    (`run_later`). Either way the inputs' buffers hold their blocks, the scratch ends at the table and the block at
    the running sum including this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  have hN : t.val < 5 := lt_of_lt_of_eq t.isLt (show cfg0.N = 5 from N_0)
  by_cases h0 : t.val = 0
  · rw [PhiS_castSucc m c t, PhiS_zero m c _ _ h0, PhiA_eq, acc_first m c t h0]
    obtain rfl : t = t0_0 := Fin.ext h0
    unfold table
    iintro ⟨⟨HS0, Hg⟩, Ho, ⟨%d0, H0⟩, ⟨%d1, H1⟩, ⟨%d2, H2⟩⟩
    iapply (run_first c (grid0.coords t0_0) _ _ _ _ _ _ _ _ ((isFirst_iff t0_0).mpr h0) ((isFirst'_iff t0_0).mpr h0)
      (fun h => by have := (isLater_iff t0_0).mp h; omega) (iblk m c 0 t0_0) (iblk m c 1 t0_0) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iexact HS0
      iexact Hg
    isplitl [Ho]; · iexact Ho
    isplitl [H0]; · iexact H0
    isplitl [H1]; · iexact H1
    iexact H2
  · rw [PhiS_castSucc m c t, PhiS_pos m c _ _ h0, acc_later m c t h0]
    simp only [before2_later m c t h0]
    iintro ⟨⟨HS0, Hg⟩, Ho, ⟨%d0, H0⟩, ⟨%d1, H1⟩, ⟨%d2, H2⟩⟩
    iapply (run_later c (grid0.coords t) _ _ _ _ _ _ _ _ (fun h => h0 ((isFirst_iff t).mp h)) (fun h => h0 ((isFirst'_iff t).mp h))
      ((isLater_iff t).mpr (by omega)) (iblk m c 0 t) (iblk m c 1 t) (acc m c (t.val - 1) (Nat.lt_of_le_of_lt (Nat.sub_le _ _) t.isLt)) (table m c) Set.univ _)
    isplitl [H0]; · iexact H0
    isplitl [H1]; · iexact H1
    isplitl [H2]; · iexact H2
    isplitl [HS0]; · iexact HS0
    iintro ⟨H0, H1, H2, HS0⟩
    isplitl [HS0 Hg]
    · isplitl [HS0]
      · iexact HS0
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 5 := N_0; omega), PhiA_eq]
  iintro ⟨HS0, Hg⟩
  isplitl [HS0]
  · iexists _; iexact HS0
  iexact Hg

/-! ## The run and the frame -/

set_option backward.isDefEq.respectTransparency.types false in
/-- From any memory with zero counters every weakly fair execution of @main terminates, and in every final state
    each array of the pipeline holds what the library computes from the proof data (the inputs their entry
    contents, the output array the block written back after the last point) and every other unscoped buffer what
    the transposition after the region leaves it at. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its two argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The function both programs compute, and the regrouping of its sum that joins them.

  The inputs are an integer matrix `a` (16384 x 1000) and a table `e` (1000 x 16). Row `j` of the result
  (16383 x 16) is row `j + 1` of `a`, converted to floats, times the table:
      G a e (j, n) = sum over k < 1000 of float(a (j + 1, k)) * e (k, n).
  The reference contracts all 1000 terms at once; the kernel contracts them in five slabs of 200 and adds
  the slabs' partial products one after the other. Addition of extended reals is commutative and associative,
  so the two groupings agree with no finiteness assumption.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev SRows : Shape := ⟨2, ![16384, 1000]⟩
abbrev STable : Shape := ⟨2, ![1000, 16]⟩
abbrev SOut : Shape := ⟨2, ![16383, 16]⟩

/-- Result row `j` reads input row `j + 1`. -/
def below (j : Fin 16383) : Fin 16384 := ⟨j.val + 1, by omega⟩

/-- The specification: the rows of `a` from the second on, as floats, times the table. -/
def G (a : IVec SRows 32) (e : FVec Ideal STable .f32) : FVec Ideal SOut .f32 :=
  fun i => ∑ k : Fin 1000, (sitofp .f32 a : FVec Ideal SRows .f32) (ix2 (below (i 0)) k) * e (ix2 k (i 1))

/-- Position `k` of slab `b`: row `200 b + k` of the table. -/
def inSlab (b : Fin 5) (k : Fin 200) : Fin 1000 := ⟨k.val + 200 * b.val, by omega⟩

/-- A sum over 1000 terms is the sum over five slabs of the sums over the slabs' 200 terms. -/
theorem sum_slabs {M : Type*} [AddCommMonoid M] (f : Fin 1000 → M) :
    ∑ k : Fin 1000, f k = ∑ b : Fin 5, ∑ k : Fin 200, f (inSlab b k) := by
  rw [← (finProdFinEquiv (m := 5) (n := 200)).sum_comp f, Fintype.sum_prod_type]
  rfl

/-- Adding the slabs' sums one after the other from the first (what an accumulator does) gives the sum over all
    slabs: `run n` is the accumulator after slab `n`. -/
theorem run_eq_sum {M : Type*} [AddCommMonoid M] (P : ℕ → M) (run : ℕ → M) (h0 : run 0 = P 0)
    (hs : ∀ n, n < 4 → run (n + 1) = run n + P (n + 1)) :
    run 4 = ∑ b : Fin 5, P b.val := by
  rw [Fin.sum_univ_five]
  rw [hs 3 (by omega), hs 2 (by omega), hs 1 (by omega), hs 0 (by omega), h0]
  rfl

end Cert.Spec

end
-- ==== Proof.KernelValue.lean ====
/-
  The kernel's result, read index by index at the ideal instance, is the specification.

  The transposed integer matrix (1000 x 16384) is walked in five slabs of 200 rows. Slab b's partial product
  at (n, j) is the sum over k < 200 of table (200 b + k, n) * float(a (j + 1, 200 b + k)): the matrix unit
  contracts the slab's 200 rows with the matching 200 rows of the table, and the result's first lane is dropped,
  so that output column j reads input column j + 1. The output block after the last point holds the five
  partial products added up, the block is the whole 16 x 16383 array, and the program returns its transpose.
-/
import proofs.«159572_g5153960755898_cont_9to1_m_245_21_alg».proof.Proof.KernelIdealBody
import proofs.«159572_g5153960755898_cont_9to1_m_245_21_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Body Cert.Spec

/-! ## The payloads at an index -/

/-- The scratch's fill: the transposed table, transposed back. -/
theorem pay1_apply (x1 : FVec Ideal S16x1000 .f32) (k : Fin 1000) (n : Fin 16) :
    k0_pay1 (F := Ideal) x1 (ix2 k n) = x1 (ix2 n k) := by
  unfold k0_pay1
  rw [shapeCast_self, shapeCast_self]
  exact transpose_ix2_apply x1 _ k n

/-- Where slab `t` starts in the scratch. -/
theorem slab_off : ∀ t : Fin cfg0.N, k0_off1 (grid0.coords t) = ![200 * t.val, 0] :=
  (by decide +kernel : ∀ t : Fin grid0.N, k0_off1 (grid0.coords t) = ![200 * t.val, 0])

/-- Row `k` of slab `t` is row `200 t + k` of the table. -/
theorem slab_apply (t : Fin cfg0.N) (e : FVec Ideal S1000x16 .f32) (k : Fin 200) (n : Fin 16) (q : Fin 1000)
    (hq : q.val = k.val + 200 * t.val) :
    slab (F := Ideal) (grid0.coords t) e (ix2 k n) = e (ix2 q n) := by
  unfold slab
  show e ((Rect.unit (s := S1000x16) (k0_off1 (grid0.coords t)) S200x16.size (Gen.k0_off1_inb (grid0.coords t))).idx (ix2 k n)) = _
  refine congrArg e (funext fun a => Fin.ext ?_)
  have ho := slab_off t
  match a with
  | ⟨0, _⟩ =>
    show k0_off1 (grid0.coords t) 0 + 1 * k.val = q.val
    rw [ho, hq]; show 200 * t.val + 1 * k.val = _; omega
  | ⟨1, _⟩ =>
    show k0_off1 (grid0.coords t) 1 + 1 * n.val = n.val
    rw [ho]; show 0 + 1 * n.val = _; omega

/-! ## The matrix unit's product at an index -/

theorem lhs_dot_0 (i : S16x16384.Idx) (q : dot_S200x16_S200x16384_S16x16384_0_0_1_1_n_n.contr.Idx) :
    (dot_S200x16_S200x16384_S16x16384_0_0_1_1_n_n.lhsIdx i q 0).val = (q ⟨0, by decide⟩).val :=
  dot_S200x16_S200x16384_S16x16384_0_0_1_1_n_n.lhsIdx_val_of_single rfl i q
theorem lhs_dot_1 (i : S16x16384.Idx) (q : dot_S200x16_S200x16384_S16x16384_0_0_1_1_n_n.contr.Idx) :
    (dot_S200x16_S200x16384_S16x16384_0_0_1_1_n_n.lhsIdx i q 1).val = (i 0).val := by
  unfold DotDims.lhsIdx
  rw [dif_neg (show ¬(1 : Fin S200x16.rank) ∈ dot_S200x16_S200x16384_S16x16384_0_0_1_1_n_n.lhsBatch by decide), dif_pos (show (1 : Fin S200x16.rank) ∈ dot_S200x16_S200x16384_S16x16384_0_0_1_1_n_n.lhsNonContracting by decide)]
  rfl
theorem rhs_dot_0 (i : S16x16384.Idx) (q : dot_S200x16_S200x16384_S16x16384_0_0_1_1_n_n.contr.Idx) :
    (dot_S200x16_S200x16384_S16x16384_0_0_1_1_n_n.rhsIdx i q 0).val = (q ⟨0, by decide⟩).val :=
  dot_S200x16_S200x16384_S16x16384_0_0_1_1_n_n.rhsIdx_val_of_single rfl i q
theorem rhs_dot_1 (i : S16x16384.Idx) (q : dot_S200x16_S200x16384_S16x16384_0_0_1_1_n_n.contr.Idx) :
    (dot_S200x16_S200x16384_S16x16384_0_0_1_1_n_n.rhsIdx i q 1).val = (i 1).val := by
  unfold DotDims.rhsIdx
  rw [dif_neg (show ¬(1 : Fin S200x16384.rank) ∈ dot_S200x16_S200x16384_S16x16384_0_0_1_1_n_n.rhsBatch by decide), dif_pos (show (1 : Fin S200x16384.rank) ∈ dot_S200x16_S200x16384_S16x16384_0_0_1_1_n_n.rhsNonContracting by decide)]
  rfl

/-- A slab's partial product at (n, j): the slab's 200 rows of the table against the slab's rows of the converted
    matrix, at lane j + 1 (the first lane is dropped). -/
theorem pay2_apply (x0 : IVec S200x16384 32) (v8 : FVec Ideal S200x16 .f32) (n : Fin 16) (j : Fin 16383) :
    k0_pay2 (F := Ideal) x0 v8 (ix2 n j)
      = ∑ k : Fin 200, v8 (ix2 k n) * (sitofp .f32 x0 : FVec Ideal S200x16384 .f32) (ix2 k (below j)) := by
  unfold k0_pay2
  rw [shapeCast_self]
  rw [extractStridedSlice_apply ![0, 1] _ _ (ix2 n j) (ix2 n (below j)) (fun a => match a with
    | ⟨0, _⟩ => by show n.val = 0 + n.val; omega
    | ⟨1, _⟩ => by show j.val + 1 = 1 + j.val; omega)]
  refine (Ideal.matmul_constant_zero_apply dot_S200x16_S200x16384_S16x16384_0_0_1_1_n_n none v8 (sitofp .f32 x0) (ix2 n (below j))).trans ?_
  rw [← Equiv.sum_comp (contrEquiv1 dot_S200x16_S200x16384_S16x16384_0_0_1_1_n_n 200 rfl rfl).symm]
  refine Finset.sum_congr rfl fun k _ => ?_
  have hk := contrEquiv1_symm_val dot_S200x16_S200x16384_S16x16384_0_0_1_1_n_n 200 rfl rfl k
  have el : dot_S200x16_S200x16384_S16x16384_0_0_1_1_n_n.lhsIdx (ix2 n (below j)) ((contrEquiv1 dot_S200x16_S200x16384_S16x16384_0_0_1_1_n_n 200 rfl rfl).symm k) = ix2 k n := funext fun a => Fin.ext (by
    match a with
    | ⟨0, _⟩ => exact (lhs_dot_0 _ _).trans hk
    | ⟨1, _⟩ => exact lhs_dot_1 _ _)
  have er : dot_S200x16_S200x16384_S16x16384_0_0_1_1_n_n.rhsIdx (ix2 n (below j)) ((contrEquiv1 dot_S200x16_S200x16384_S16x16384_0_0_1_1_n_n 200 rfl rfl).symm k) = ix2 k (below j) := funext fun a => Fin.ext (by
    match a with
    | ⟨0, _⟩ => exact (rhs_dot_0 _ _).trans hk
    | ⟨1, _⟩ => exact rhs_dot_1 _ _)
  rw [el, er]

/-- A later point adds its partial product to what the block held. -/
theorem pay3_apply (x0 : IVec S200x16384 32) (v8 : FVec Ideal S200x16 .f32) (a : FVec Ideal S16x16383 .f32) (n : Fin 16) (j : Fin 16383) :
    k0_pay3 (F := Ideal) x0 v8 a (ix2 n j) = a (ix2 n j) + k0_pay2 (F := Ideal) x0 v8 (ix2 n j) := by
  unfold k0_pay3
  rw [shapeCast_self]
  rfl

/-! ## The arrays the region finds, and the windows' blocks -/

variable (m : (ℓ : Loc nD τ sig) → Buf (Elt Ideal) ℓ) (ρ : Dev nD → PrngReg)

/-- The two arguments as launched. -/
abbrev rowsArg (c : Dev nD) : IVec S16384x1000 32 := m ((c : Thread nD τ).loc main_arg0)
abbrev tableArg (c : Dev nD) : FVec Ideal S1000x16 .f32 := m ((c : Thread nD τ).loc main_arg1)

/-- Window 0's array is the integer matrix transposed; -/
theorem V_rows (c : Dev nD) : (V m c main_v0 : S1000x16384.Idx → BitVec 32)
    = transpose S1000x16384 [1, 0] (rowsArg m c) transposes_S16384x1000_S1000x16384_1_0 := by
  show StableHlo.after hostOps0 (fun b => m (c, b)) (Proc.devRef .tc main_v0) = _
  after_results

/-- window 1's the table transposed. -/
theorem V_table (c : Dev nD) : (V m c main_v1 : S16x1000.Idx → EReal)
    = transpose S16x1000 [1, 0] (tableArg m c) transposes_S1000x16_S16x1000_1_0 := by
  show StableHlo.after hostOps0 (fun b => m (c, b)) (Proc.devRef .tc main_v1) = _
  after_results

/-- The printed index maps over the grid: window 0 walks the slabs, windows 1 and 2 stay at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row `k` of slab `t` of the transposed matrix is column `200 t + k` of the matrix. -/
theorem rows_apply (c : Dev nD) (t : Fin cfg0.N) (k : Fin 200) (j : Fin 16384) (q : Fin 1000) (hq : q.val = k.val + 200 * t.val) :
    (iblk m c 0 t : Vec Ideal S200x16384 .i32) (ix2 k j) = rowsArg m c (ix2 j q) := by
  obtain ⟨e0, e1, -⟩ := index_facts t
  have h : (iblk m c 0 t : Vec Ideal S200x16384 .i32) (ix2 k j) = V m c main_v0 (ix2 q j) := by
    show V m c main_v0 (((cfg0.win 0).blk t).view.emb (ix2 k j)) = V m c main_v0 (ix2 q j)
    refine congrArg _ (funext fun a => Fin.ext ?_)
    match a with
    | ⟨0, _⟩ => show win0_0.index t (0 : Fin 2) * 200 + 1 * k.val = q.val; omega
    | ⟨1, _⟩ => show win0_0.index t (1 : Fin 2) * 16384 + 1 * j.val = j.val; omega
  rw [h, V_rows]
  exact transpose_ix2_apply _ _ q j

/-- The scratch holds the table itself. -/
theorem table_apply (c : Dev nD) (q : Fin 1000) (n : Fin 16) : table m c (ix2 q n) = tableArg m c (ix2 q n) := by
  unfold table
  rw [pay1_apply]
  obtain ⟨-, -, e0, e1, -⟩ := index_facts t0_0
  have h : (iblk m c 1 t0_0 : Vec Ideal S16x1000 .f32) (ix2 n q) = V m c main_v1 (ix2 n q) := by
    show V m c main_v1 (((cfg0.win 1).blk t0_0).view.emb (ix2 n q)) = V m c main_v1 (ix2 n q)
    refine congrArg _ (funext fun a => Fin.ext ?_)
    match a with
    | ⟨0, _⟩ => show win0_1.index t0_0 (0 : Fin 2) * 16 + 1 * n.val = n.val; omega
    | ⟨1, _⟩ => show win0_1.index t0_0 (1 : Fin 2) * 1000 + 1 * q.val = q.val; omega
  rw [h, V_table]
  exact transpose_ix2_apply _ _ n q

/-! ## The running sum at an index -/

/-- Slab `b`'s partial product at (n, j), over the arguments as launched (zero past the grid). -/
def part (c : Dev nD) (n : Fin 16) (j : Fin 16383) (b : ℕ) : EReal :=
  if h : b < 5 then
    ∑ k : Fin 200, tableArg m c (ix2 (inSlab ⟨b, h⟩ k) n) * (sitofp .f32 (rowsArg m c) : FVec Ideal S16384x1000 .f32) (ix2 (below j) (inSlab ⟨b, h⟩ k))
  else 0

/-- What point `t` computes is slab `t`'s partial product. -/
theorem point_term (c : Dev nD) (t : Fin cfg0.N) (n : Fin 16) (j : Fin 16383) :
    k0_pay2 (F := Ideal) (iblk m c 0 t) (slab (grid0.coords t) (table m c)) (ix2 n j) = part m c n j t.val := by
  have hN : t.val < 5 := lt_of_lt_of_eq t.isLt (show cfg0.N = 5 from N_0)
  rw [pay2_apply]
  unfold part
  rw [dif_pos hN]
  refine Finset.sum_congr rfl fun k _ => ?_
  rw [slab_apply t _ k n (inSlab ⟨t.val, hN⟩ k) rfl, table_apply]
  refine congrArg (tableArg m c (ix2 (inSlab ⟨t.val, hN⟩ k) n) * ·) ?_
  show FloatOps.sitofp .f32 ((iblk m c 0 t : Vec Ideal S200x16384 .i32) (ix2 k (below j))) = FloatOps.sitofp .f32 (rowsArg m c (ix2 (below j) (inSlab ⟨t.val, hN⟩ k)))
  rw [rows_apply m c t k (below j) (inSlab ⟨t.val, hN⟩ k) rfl]

/-- The partial products added one after the other from the first. -/
def runningSum (c : Dev nD) (n : Fin 16) (j : Fin 16383) : ℕ → EReal
  | 0 => part m c n j 0
  | b + 1 => runningSum c n j b + part m c n j (b + 1)

/-- The output block after point `b` holds the running sum through slab `b`. -/
theorem acc_apply (c : Dev nD) (n : Fin 16) (j : Fin 16383) :
    ∀ (b : ℕ) (hb : b < cfg0.N), acc m c b hb (ix2 n j) = runningSum m c n j b
  | 0, hb => point_term m c ⟨0, hb⟩ n j
  | b + 1, hb => by
    show k0_pay3 (F := Ideal) (iblk m c 0 ⟨b + 1, hb⟩) (slab (grid0.coords ⟨b + 1, hb⟩) (table m c)) (acc m c b (Nat.lt_of_succ_lt hb)) (ix2 n j) = _
    rw [pay3_apply, acc_apply c n j b (Nat.lt_of_succ_lt hb), point_term m c ⟨b + 1, hb⟩ n j]
    rfl

/-- After the last point the block holds the specification, transposed: the five partial products are the
    1000-term sum regrouped, and each term's two factors are swapped. -/
theorem acc_last (c : Dev nD) (n : Fin 16) (j : Fin 16383) (hb : 4 < cfg0.N) :
    acc m c 4 hb (ix2 n j) = G (rowsArg m c) (tableArg m c) (ix2 j n) := by
  rw [acc_apply, run_eq_sum (part m c n j) (runningSum m c n j) rfl (fun _ _ => rfl)]
  unfold G
  rw [sum_slabs]
  refine Finset.sum_congr rfl fun b _ => ?_
  unfold part
  rw [dif_pos b.isLt]
  refine Finset.sum_congr rfl fun k _ => ?_
  exact mul_comm _ _

/-! ## From the block to the array, and the transposition after the region -/

/-- The output block is the whole array: its one write-back, after the last point, leaves the array at the
    running sum through the last slab. -/
theorem final_block (c : Dev nD) :
    (dats m 0 c).arrAt 2 cfg0.N = (acc m c 4 (by rw [show cfg0.N = 5 from N_0]; decide) : S16x16383.Idx → EReal) := by
  refine (dats m 0 c).arrAt_eq_of_cover 2 _ (fun t hf => ?_) (fun i => ⟨t0_4, (flush0_2 t0_4).mpr rfl, ?_⟩)
  · have h4 : t.val = 4 := by
      have := (flush0_2 t).mp hf
      have hN : t.val < 5 := lt_of_lt_of_eq t.isLt (show cfg0.N = 5 from N_0)
      omega
    obtain rfl : t = t0_4 := Fin.ext h4
    show (cfg0.win 2).cut (grid0.coords t0_4) ((dats m 0 c).after 2 t0_4) = _
    rw [after2]
    obtain ⟨-, -, -, -, e0, e1⟩ := index_facts t0_4
    funext y
    show acc m c 4 _ y = acc m c 4 _ (((cfg0.win 2).blk t0_4).view.emb y)
    refine congrArg _ (funext fun a => Fin.ext ?_)
    match a with
    | ⟨0, _⟩ => show (y 0).val = win0_2.index t0_4 (0 : Fin 2) * 16 + 1 * (y 0).val; omega
    | ⟨1, _⟩ => show (y 1).val = win0_2.index t0_4 (1 : Fin 2) * 16383 + 1 * (y 1).val; omega
  · obtain ⟨-, -, -, -, e0, e1⟩ := index_facts t0_4
    show i ∈ ((View.whole main_v2).slice (win0_2.rect t0_4)).set
    rw [View.set_slice_whole, Rect.mem_set_unit]
    intro a
    match a with
    | ⟨0, _⟩ =>
      show win0_2.index t0_4 (0 : Fin 2) * 16 ≤ (i 0).val ∧ (i 0).val < win0_2.index t0_4 (0 : Fin 2) * 16 + 16
      have : (i 0).val < 16 := (i 0).isLt
      omega
    | ⟨1, _⟩ =>
      show win0_2.index t0_4 (1 : Fin 2) * 16383 ≤ (i 1).val ∧ (i 1).val < win0_2.index t0_4 (1 : Fin 2) * 16383 + 16383
      have : (i 1).val < 16383 := (i 1).isLt
      omega

/-- The program's result: the array the region leaves, transposed — the specification. -/
theorem result_eq (c : Dev nD) :
    Pipeline.afterTail₀ cfgs (dats m) 0 (V0 m) [hostOps1] c main_v3 = G (rowsArg m c) (tableArg m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = (acc m c 4 (by rw [show cfg0.N = 5 from N_0]; decide) : S16x16383.Idx → EReal) :=
    (Pipeline.withArrays_arr spec0 launch0.win.arr_inj c _ _ 2).trans (final_block m c)
  rw [hw]
  funext i
  obtain ⟨j, n, rfl⟩ : ∃ (j : Fin 16383) (n : Fin 16), i = ix2 j n := ⟨i 0, i 1, eq_ix2 i⟩
  rw [transpose_ix2_apply, acc_last]

/-! ## The run, read -/

/-- At the ideal instance every weakly fair execution of the kernel's program terminates with its result at the
    specification of its two arguments, and the arguments unchanged. -/
theorem run : θ_run defs (onTc (τ := τ) (main (F := Ideal))) ⟨m, fun _ => 0, ρ⟩ fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference computes the specification. Its three host operations are: convert the integer matrix to
  floats, drop its first row, and contract the remaining 16383 x 1000 matrix with the 1000 x 16 table. Read at
  an index (j, n), the contraction is the sum over k of the converted entry at row j + 1, column k, times the
  table's entry (k, n): the specification `G`, term for term.
-/
import proofs.«159572_g5153960755898_cont_9to1_m_245_21_alg».proof.Proof.Gen.ReferenceIdeal.Read
import proofs.«159572_g5153960755898_cont_9to1_m_245_21_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The slice's row `j` is the converted matrix's row `j + 1`; the contraction reads its column `k`. -/
theorem row_idx (i : S16383x16.Idx) (k : Fin 1000) : idx_main_v1 (lidx_main_v2 i k) = ix2 (Cert.Spec.below (i 0)) k :=
  funext fun a => Fin.ext (by
    match a with
    | ⟨0, _⟩ => show 1 + (i 0).val = (i 0).val + 1; omega
    | ⟨1, _⟩ => rfl)

/-- The contraction reads the table at row `k`, in the result's column. -/
theorem table_idx (i : S16383x16.Idx) (k : Fin 1000) : ridx_main_v2 i k = ix2 k (i 1) :=
  funext fun a => Fin.ext (by
    match a with
    | ⟨0, _⟩ => rfl
    | ⟨1, _⟩ => rfl)

/-- The reference's result term is the specification of its two arguments. -/
theorem result_eq (x0 : IVec S16384x1000 32) (x1 : FVec Ideal S1000x16 .f32) :
    Host.dotGeneral (F := Ideal) dot_S16383x1000_S1000x16_S16383x16_1_0_0_1_n_n none (extractStridedSlice S16383x1000 ![1, 0] (sitofp .f32 (x0)) slices_S16384x1000_S16383x1000_1_0) (x1)
      = Cert.Spec.G x0 x1 := by
  rw [val_main_v2_eq]
  funext i
  rw [val_main_v2_apply]
  unfold Cert.Spec.G
  refine Finset.sum_congr rfl fun k _ => ?_
  rw [val_main_v1_apply, row_idx, table_idx]
  rfl

end Cert.ReferenceIdeal.RefValue

end
-- ==== Proof.lean ====
/-
  The certificate: a kernel that multiplies the rows of an integer matrix (from the second row on, converted to
  floats) by a small table, against the plain matrix product.

  Over the extended reals both programs compute, at (j, n), the sum over k < 1000 of float(a (j + 1, k)) * e (k, n)
  (Proof/Spec.lean). The reference contracts the 1000 terms at once (Proof/RefValue.lean). The kernel works on
  the transposed operands, walks the contraction in five slabs of 200, keeps the table in a scratch buffer it
  fills at the first grid point, accumulates the slabs' partial products in its output block and returns the
  block transposed (Proof/KernelIdealBody.lean runs its body point by point, Proof/KernelValue.lean reads the
  result index by index). Sums of extended reals may be regrouped and products commuted freely, so the two
  agree on every input: the precondition is never opened. The three frames are the runs with their results
  dropped; the idealization rewrote nothing, so there is nothing to preserve.
-/
import proofs.«159572_g5153960755898_cont_9to1_m_245_21_alg».proof.Defs
import proofs.«159572_g5153960755898_cont_9to1_m_245_21_alg».proof.Proof.Gen.Kernel
import proofs.«159572_g5153960755898_cont_9to1_m_245_21_alg».proof.Proof.Gen.KernelIdeal
import proofs.«159572_g5153960755898_cont_9to1_m_245_21_alg».proof.Proof.Gen.ReferenceIdeal
import proofs.«159572_g5153960755898_cont_9to1_m_245_21_alg».proof.Proof.Gen.ReferenceIdeal.Run
import proofs.«159572_g5153960755898_cont_9to1_m_245_21_alg».proof.Proof.Gen.Pre_finite_inputs
import proofs.«159572_g5153960755898_cont_9to1_m_245_21_alg».proof.Proof.KernelBody
import proofs.«159572_g5153960755898_cont_9to1_m_245_21_alg».proof.Proof.KernelIdealBody
import proofs.«159572_g5153960755898_cont_9to1_m_245_21_alg».proof.Proof.KernelValue
import proofs.«159572_g5153960755898_cont_9to1_m_245_21_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, both idealized programs end with the specification of those
    arguments as their result. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
